-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x32 : Shape := ⟨2, ![1000000, 32]⟩
abbrev S128x32 : Shape := ⟨2, ![128, 32]⟩
abbrev S1000000 : Shape := ⟨1, ![1000000]⟩
abbrev S192x128 : Shape := ⟨2, ![192, 128]⟩
abbrev S128 : Shape := ⟨1, ![128]⟩
abbrev S32 : Shape := ⟨1, ![32]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S128x32 : S_.BroadcastsInDim S128x32 (![] : Fin 0 → Fin S128x32.rank)
  reducesTo_S128x32_S_d0_1 : S128x32.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S32 : S_.BroadcastsInDim S32 (![] : Fin 0 → Fin S32.rank)
  reducesTo_S32_S_d0 : S32.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg4 : IVec S1000000 32) (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_c_14 : IVec S_ 32 := constantI S_ 32 0#32
  let main_v39 : IVec S1000000 32 := broadcastInDim S1000000 ![] bcast_S_S1000000 main_c_14
  let main_v40 : IVec S1000000 1 := cmpi .sge main_arg4 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v38 main_v41
  let main_c_16 : IVec S_ 32 := constantI S_ 32 128#32
  let main_v43 : IVec S1000000 32 := broadcastInDim S1000000 ![] bcast_S_S1000000 main_c_16
  let main_v44 : IVec S1000000 1 := cmpi .slt main_arg4 main_v43
  let main_c_17 : IVec S_ 1 := constantI S_ 1 1#1
  let main_v45 : IVec S_ 1 := (fun x v => Host.reduce IntOp.andi x v reducesTo_S1000000_S_d0 h_S_) main_v44 main_c_17
  let main_v46 : IVec S_ 1 := andi main_v42 main_v45
  main_v46

def fn_part1 {F : FTy → Type} [FloatOps F] (main_arg4 : IVec S1000000 32) (main_arg5 : FVec F S192x128 .f32) (main_arg6 : FVec F S128 .f32) (main_arg7 : FVec F S128x32 .f32) (main_arg8 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg4 main_arg8 main_v33

def fn {F : FTy → Type} [FloatOps F] (main_arg0 : FVec F S1000000x64 .f32) (main_arg1 : FVec F S1000000x64 .f32) (main_arg2 : FVec F S1000000x32 .f32) (main_arg3 : FVec F S128x32 .f32) (main_arg4 : IVec S1000000 32) (main_arg5 : FVec F S192x128 .f32) (main_arg6 : FVec F S128 .f32) (main_arg7 : FVec F S128x32 .f32) (main_arg8 : FVec F S32 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x32 .f32 := Host.absf main_arg2
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_arg6 main_arg7 main_arg8 main_v13 main_v16
-- ==== Kernel.lean ====
abbrev S1000000x64 : Shape := ⟨2, ![1000000, 64]⟩
abbrev S1000000x32 : Shape := ⟨2, ![1000000, 32]⟩
abbrev S128x32 : Shape := ⟨2, ![128, 32]⟩
abbrev S1000000 : Shape := ⟨1, ![1000000]⟩
abbrev S192x128 : Shape := ⟨2, ![192, 128]⟩
abbrev S128 : Shape := ⟨1, ![128]⟩
abbrev S32 : Shape := ⟨1, ![32]⟩
abbrev S200x5000 : Shape := ⟨2, ![200, 5000]⟩
abbrev S64x128 : Shape := ⟨2, ![64, 128]⟩
abbrev S32x128 : Shape := ⟨2, ![32, 128]⟩
abbrev S128x128 : Shape := ⟨2, ![128, 128]⟩
abbrev S5000x64 : Shape := ⟨2, ![5000, 64]⟩
abbrev S5000x32 : Shape := ⟨2, ![5000, 32]⟩
abbrev S1x5000 : Shape := ⟨2, ![1, 5000]⟩
abbrev S5000 : Shape := ⟨1, ![5000]⟩
abbrev S128x5000 : Shape := ⟨2, ![128, 5000]⟩
abbrev S5000x128 : Shape := ⟨2, ![5000, 128]⟩
abbrev S1x128 : Shape := ⟨2, ![1, 128]⟩
abbrev S1x32 : Shape := ⟨2, ![1, 32]⟩

abbrev nBuf : Space → Nat
  | .hbm => 16
  | .vmem => 16
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x32, .f32⟩
  | .hbm, ⟨3, _⟩ => ⟨S128x32, .f32⟩
  | .hbm, ⟨4, _⟩ => ⟨S1000000, .i32⟩
  | .hbm, ⟨5, _⟩ => ⟨S192x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S200x5000, .i32⟩
  | .hbm, ⟨10, _⟩ => ⟨S64x128, .f32⟩
  | .hbm, ⟨11, _⟩ => ⟨S64x128, .f32⟩
  | .hbm, ⟨12, _⟩ => ⟨S32x128, .f32⟩
  | .hbm, ⟨13, _⟩ => ⟨S32x128, .f32⟩
  | .hbm, ⟨14, _⟩ => ⟨S128x128, .f32⟩
  | .hbm, ⟨15, _⟩ => ⟨S1000000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x32, .f32⟩
  | .local _ .vmem, ⟨5, _⟩ => ⟨S5000x32, .f32⟩
  | .local _ .vmem, ⟨6, _⟩ => ⟨S200x5000, .i32⟩
  | .local _ .vmem, ⟨7, _⟩ => ⟨S128x128, .f32⟩
  | .local _ .vmem, ⟨8, _⟩ => ⟨S64x128, .f32⟩
  | .local _ .vmem, ⟨9, _⟩ => ⟨S64x128, .f32⟩
  | .local _ .vmem, ⟨10, _⟩ => ⟨S32x128, .f32⟩
  | .local _ .vmem, ⟨11, _⟩ => ⟨S128, .f32⟩
  | .local _ .vmem, ⟨12, _⟩ => ⟨S128x32, .f32⟩
  | .local _ .vmem, ⟨13, _⟩ => ⟨S32, .f32⟩
  | .local _ .vmem, ⟨14, _⟩ => ⟨S5000x32, .f32⟩
  | .local _ .vmem, ⟨15, _⟩ => ⟨S5000x32, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![200], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S200x5000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1000000_S200x5000 : S1000000.ShapeCasts S200x5000
  slices_S192x128_S64x128_0_0 : S192x128.Slices ![0, 0] S64x128
  slices_S192x128_S64x128_64_0 : S192x128.Slices ![64, 0] S64x128
  slices_S192x128_S32x128_128_0 : S192x128.Slices ![128, 0] S32x128
  slices_S192x128_S32x128_160_0 : S192x128.Slices ![160, 0] S32x128
  h_S1x5000 : 0 < S1x5000.numel
  shapeCasts_S1x5000_S5000 : S1x5000.ShapeCasts S5000
  iota_S128x5000_d0_w32 : S128x5000.Iotas .tc 32 [0]
  shapeCasts_S5000_S1x5000 : S5000.ShapeCasts S1x5000
  broadcasts_S1x5000_S128x5000 : S1x5000.Broadcasts S128x5000
  natLt_1_32 : 1 < 32
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  dot_S128x32_S32x128_S128x128_1_0_0_1_n_n_wf : DotDims.WF S128x32 S32x128 S128x128 [1] [0] [0] [1] [] []
  dot_S5000x64_S64x128_S5000x128_1_0_0_1_n_n_wf : DotDims.WF S5000x64 S64x128 S5000x128 [1] [0] [0] [1] [] []
  dot_S5000x32_S32x128_S5000x128_1_0_0_1_n_n_wf : DotDims.WF S5000x32 S32x128 S5000x128 [1] [0] [0] [1] [] []
  dot_S128x5000_S128x128_S5000x128_0_0_1_1_n_n_wf : DotDims.WF S128x5000 S128x128 S5000x128 [0] [0] [1] [1] [] []
  dot_S5000x128_S128x32_S5000x32_1_0_0_1_n_n_wf : DotDims.WF S5000x128 S128x32 S5000x32 [1] [0] [0] [1] [] []
  hrank0 : 0 < grid0.rank
  k0_off1_inb : ∀ i : grid0.Coords, ∀ a, (k0_off1 i) a + S1x5000.size a ≤ S200x5000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S1000000x32.size a
  hwx0_2 : ∀ i : grid0.Coords, EltTy.bits .f32 = 32 ∨ (Rect.block (s := S1000000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x5000.size a ≤ S200x5000.size a
  hwx0_3 : ∀ i : grid0.Coords, EltTy.bits .i32 = 32 ∨ (Rect.block (s := S200x5000) S200x5000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .f32 = 32 ∨ (Rect.block (s := S128x32) S128x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x32.size a ≤ S1000000x32.size a
  hwx0_11 : ∀ i : grid0.Coords, EltTy.bits .f32 = 32 ∨ (Rect.block (s := S1000000x32) S5000x32.size (cc0_transform_11 i) (hinb0_11 i)).WholeWords (EltTy.packing .f32)

variable [Facts₀]

def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S128x5000_S128x128_S5000x128_0_0_1_1_n_n : DotDims S128x5000 S128x128 S5000x128 where
  lhsContracting := [0]
  rhsContracting := [0]
  lhsNonContracting := [1]
  rhsNonContracting := [1]
  lhsBatch := []
  rhsBatch := []
  wf := dot_S128x5000_S128x128_S5000x128_0_0_1_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x5000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S5000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x32 : Shape := ⟨2, ![1000000, 32]⟩
abbrev S128x32 : Shape := ⟨2, ![128, 32]⟩
abbrev S1000000 : Shape := ⟨1, ![1000000]⟩
abbrev S192x128 : Shape := ⟨2, ![192, 128]⟩
abbrev S128 : Shape := ⟨1, ![128]⟩
abbrev S32 : Shape := ⟨1, ![32]⟩
abbrev S_ : Shape := ⟨0, ![]⟩
abbrev S1000000x1 : Shape := ⟨2, ![1000000, 1]⟩
abbrev S1000000x192 : Shape := ⟨2, ![1000000, 192]⟩
abbrev S1000000x128 : Shape := ⟨2, ![1000000, 128]⟩
abbrev S1x128 : Shape := ⟨2, ![1, 128]⟩
abbrev S1x32 : Shape := ⟨2, ![1, 32]⟩

abbrev nBuf : Space → Nat
  | .hbm => 30
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x32, .f32⟩
  | .hbm, ⟨3, _⟩ => ⟨S128x32, .f32⟩
  | .hbm, ⟨4, _⟩ => ⟨S1000000, .i32⟩
  | .hbm, ⟨5, _⟩ => ⟨S192x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x32, .f32⟩
  | .hbm, ⟨18, _⟩ => ⟨S1000000x192, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000x128, .f32⟩
  | .hbm, ⟨25, _⟩ => ⟨S1000000x128, .f32⟩
  | .hbm, ⟨26, _⟩ => ⟨S1000000x32, .f32⟩
  | .hbm, ⟨27, _⟩ => ⟨S1x32, .f32⟩
  | .hbm, ⟨28, _⟩ => ⟨S1000000x32, .f32⟩
  | .hbm, ⟨29, _⟩ => ⟨S1000000x32, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x32_S1000000x32_S1000000x192_d1 : Shape.Concatenates [S1000000x64, S1000000x64, S1000000x32, S1000000x32] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  gather_S128x32_S1000000x1_S1000000x32_1_0_n_n_0_1_132_wf : GatherDims.WF S128x32 S1000000x1 S1000000x32 [1] [0] [] [0] [] 1 ![1, 32]
  dot_S1000000x192_S192x128_S1000000x128_1_0_0_1_n_n_wf : DotDims.WF S1000000x192 S192x128 S1000000x128 [1] [0] [0] [1] [] []
  dot_S1000000x128_S128x32_S1000000x32_1_0_0_1_n_n_wf : DotDims.WF S1000000x128 S128x32 S1000000x32 [1] [0] [0] [1] [] []

variable [Facts₀]

def gather_S128x32_S1000000x1_S1000000x32_1_0_n_n_0_1_132 : GatherDims S128x32 S1000000x1 S1000000x32 where
  offsetDims := [1]
  collapsedSliceDims := [0]
  operandBatchingDims := []
  startIndicesBatchingDims := []
  startIndexMap := [0]
  indexVectorDim := 1
  sliceSizes := ![1, 32]
  wf := gather_S128x32_S1000000x1_S1000000x32_1_0_n_n_0_1_132_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x32_S1000000x32_1_0_0_1_n_n : DotDims S1000000x128 S128x32 S1000000x32 where
  lhsContracting := [1]
  rhsContracting := [0]
  lhsNonContracting := [0]
  rhsNonContracting := [1]
  lhsBatch := []
  rhsBatch := []
  wf := dot_S1000000x128_S128x32_S1000000x32_1_0_0_1_n_n_wf

class Facts : Prop extends Facts₀ where

variable [Facts]
-- ==== Proof.KernelBody.lean ====
/-
  What the kernel's body leaves in its output block, as a value.

  At a grid point the body loads its ten input blocks whole, and row (point number) of the table of graph
  numbers, computes, and stores one block of 5000 edges by 32 outputs. The stored block is therefore the body's
  arithmetic applied to those loads: the second layer (bias, positive part, product with W2, bias) of the first
  layer's pre-activation block.
-/
import proofs.«416701_j5428838662514_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The row of graph numbers the body reads at grid point i: row i of the 200 by 5000 table. -/
def graphRow (i : grid0.Coords) (tbl : Vec F S200x5000 .i32) : Vec F S1x5000 .i32 :=
  View.ld tbl (Rect.unit (k0_off1 i) S1x5000.size (k0_off1_inb i))

/-- The block the body stores is its arithmetic on the blocks it loaded. -/
theorem stored_block (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x32 .f32) (harg3 : arg3.IsWhole) (arg4 : Memref sig .tc .vmem S200x5000 .i32) (harg4 : arg4.IsWhole) (arg5 : Memref sig .tc .vmem S128x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S32x128 .f32) (harg8 : arg8.IsWhole) (arg9 : Memref sig .tc .vmem S128 .f32) (harg9 : arg9.IsWhole) (arg10 : Memref sig .tc .vmem S128x32 .f32) (harg10 : arg10.IsWhole) (arg11 : Memref sig .tc .vmem S32 .f32) (harg11 : arg11.IsWhole) (arg12 : Memref sig .tc .vmem S5000x32 .f32) (harg12 : arg12.IsWhole) (x0 : Vec F S5000x64 .f32) (x1 : Vec F S5000x64 .f32) (x2 : Vec F S5000x32 .f32) (x3 : Vec F S200x5000 .i32) (x4 : Vec F S128x128 .f32) (x5 : Vec F S64x128 .f32) (x6 : Vec F S64x128 .f32) (x7 : Vec F S32x128 .f32) (x8 : Vec F S128 .f32) (x9 : Vec F S128x32 .f32) (x10 : Vec F S32 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = k0_pay1 (k0_pay2 (graphRow i x3) x0 x1 x2 x4 x5 x6 x7 x8) x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S5000x64) hz2, View.ld_unit_zero (S := S5000x32) hz2,
    View.ld_unit_zero (S := S128x128) hz2, View.ld_unit_zero (S := S64x128) hz2, View.ld_unit_zero (S := S32x128) hz2,
    View.ld_unit_zero (S := S128x32) hz2, View.ld_unit_zero (S := S128) hz1, View.ld_unit_zero (S := S32) hz1]
  rfl

end Cert.KernelIdeal.Body

end
-- ==== Proof.EdgeMath.lean ====
/-
  The edge update of a graph network with a per-graph global feature, as ONE function of its argument arrays,
  and the two laws of finite sums that relate the two ways of computing it.

  For an edge e of graph g(e) and a hidden unit h the pre-activation is

      sum_k src[e,k] W1[k,h] + sum_k dest[e,k] W1[64+k,h] + sum_k attr[e,k] W1[128+k,h]
        + sum_k u[g(e),k] W1[160+k,h] + b1[h],

  the hidden value is its positive part, and the output is the hidden row against W2 plus b2.
  One program reaches the fourth summand by selecting row g(e) of the table  u · W1[160..191]  with an
  indicator vector (a sum over all 128 graphs of  [g(e) = b] · table[b,h]); the other puts row g(e) of u beside
  the edge's other features and contracts all 192 of them against W1 at once.  The first is written down here as
  the specification; the second is shown equal to it when g(e) is a graph number below 128: a sum against an
  indicator keeps one term (multiplying by zero and by one, and adding zeros, are exact on the extended reals,
  so no finiteness is needed), and a sum over 192 = 64 + 64 + 32 + 32 positions is the sum of its four stretches.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.EdgeMlp

open Idealize.ShloMosaic Idealize.ShloMosaic.ValueIdx

/-! ## Shapes of the arguments -/

abbrev SEdgeNode : Shape := ⟨2, ![1000000, 64]⟩
abbrev SEdgeAttr : Shape := ⟨2, ![1000000, 32]⟩
abbrev SGlobal : Shape := ⟨2, ![128, 32]⟩
abbrev SEdges : Shape := ⟨1, ![1000000]⟩
abbrev SW1 : Shape := ⟨2, ![192, 128]⟩
abbrev SHid : Shape := ⟨1, ![128]⟩
abbrev SW2 : Shape := ⟨2, ![128, 32]⟩
abbrev SOut : Shape := ⟨1, ![32]⟩

/-! ## The indicator of two equal words -/

/-- The indicator that two 32-bit words are equal, as an extended real: the comparison's bit read as a number. -/
def hot (a c : BitVec 32) : EReal := (((IntOp.cmpi .eq a c).toNat : ℝ) : EReal)

theorem hot_self (a : BitVec 32) : hot a a = 1 := by
  unfold hot
  rw [StableHlo.Predicate.cmpi_eq_iff.mpr rfl]
  norm_num

theorem hot_ne {a c : BitVec 32} (h : a ≠ c) : hot a c = 0 := by
  unfold hot
  rw [eq_zero_of_ne_one (fun e => h (StableHlo.Predicate.cmpi_eq_iff.mp e))]
  norm_num

/-- A sum over the 128 graph numbers against the indicator of one of them keeps that one term. -/
theorem sum_hot (a : BitVec 32) (ha : a.toNat < 128) (f : Fin 128 → EReal) :
    ∑ b : Fin 128, hot a (BitVec.ofNat 32 b.val) * f b = f ⟨a.toNat, ha⟩ := by
  rw [Finset.sum_eq_single (⟨a.toNat, ha⟩ : Fin 128)]
  · have e : BitVec.ofNat 32 a.toNat = a := by
      apply BitVec.eq_of_toNat_eq
      rw [BitVec.toNat_ofNat]
      exact Nat.mod_eq_of_lt a.isLt
    show hot a (BitVec.ofNat 32 a.toNat) * _ = _
    rw [e, hot_self, one_mul]
  · intro b _ hb
    rw [hot_ne, zero_mul]
    intro h
    apply hb
    apply Fin.ext
    have h' := congrArg BitVec.toNat h
    rw [BitVec.toNat_ofNat] at h'
    have := b.isLt
    show b.val = a.toNat
    omega
  · intro h
    exact absurd (Finset.mem_univ _) h

/-! ## A sum over 192 positions by its four stretches -/

theorem sum_four_stretches {M : Type*} [AddCommMonoid M] (g : Fin 192 → M) :
    ∑ j : Fin 192, g j
      = (((∑ k : Fin 64, g ⟨k.val, by omega⟩) + ∑ k : Fin 64, g ⟨64 + k.val, by omega⟩)
          + ∑ k : Fin 32, g ⟨128 + k.val, by omega⟩) + ∑ k : Fin 32, g ⟨160 + k.val, by omega⟩ := by
  have h1 : ∑ j : Fin 192, g j = (∑ k : Fin 160, g ⟨k.val, by omega⟩) + ∑ k : Fin 32, g ⟨160 + k.val, by omega⟩ :=
    Fin.sum_univ_add (a := 160) (b := 32) g
  have h2 : (∑ k : Fin 160, g ⟨k.val, by omega⟩)
      = (∑ k : Fin 128, g ⟨k.val, by omega⟩) + ∑ k : Fin 32, g ⟨128 + k.val, by omega⟩ :=
    Fin.sum_univ_add (a := 128) (b := 32) (fun k : Fin 160 => g ⟨k.val, by omega⟩)
  have h3 : (∑ k : Fin 128, g ⟨k.val, by omega⟩)
      = (∑ k : Fin 64, g ⟨k.val, by omega⟩) + ∑ k : Fin 64, g ⟨64 + k.val, by omega⟩ :=
    Fin.sum_univ_add (a := 64) (b := 64) (fun k : Fin 128 => g ⟨k.val, by omega⟩)
  rw [h1, h2, h3]

/-! ## The specification -/

section Spec

variable (src dest : FVec Ideal SEdgeNode .f32) (attr : FVec Ideal SEdgeAttr .f32) (u : FVec Ideal SGlobal .f32)
  (graphOf : IVec SEdges 32) (W1 : FVec Ideal SW1 .f32) (b1 : FVec Ideal SHid .f32) (W2 : FVec Ideal SW2 .f32)
  (b2 : FVec Ideal SOut .f32)

/-- Row b of the global features against rows 160..191 of W1: graph b's contribution to hidden unit h. -/
def globalProj (b : Fin 128) (h : Fin 128) : EReal :=
  ∑ k : Fin 32, u (ix2 b k) * W1 (ix2 (⟨160 + k.val, by omega⟩ : Fin 192) h)

/-- The pre-activation of hidden unit h on edge e: the three feature blocks against their rows of W1, the edge's
    graph's contribution picked out of the 128 by the indicator of its number, and the bias. -/
def preAct (e : Fin 1000000) (h : Fin 128) : EReal :=
  ((((∑ k : Fin 64, src (ix2 e k) * W1 (ix2 (⟨k.val, by omega⟩ : Fin 192) h))
      + ∑ k : Fin 64, dest (ix2 e k) * W1 (ix2 (⟨64 + k.val, by omega⟩ : Fin 192) h))
      + ∑ k : Fin 32, attr (ix2 e k) * W1 (ix2 (⟨128 + k.val, by omega⟩ : Fin 192) h))
      + ∑ b : Fin 128, hot (graphOf (ix1 e)) (BitVec.ofNat 32 b.val) * globalProj u W1 b h)
    + b1 (ix1 h)

/-- The edge update: the positive part of the pre-activation against W2, plus b2. -/
def edgeOut : FVec Ideal SEdgeAttr .f32 := fun i =>
  (∑ h : Fin 128, max (preAct src dest attr u graphOf W1 b1 ⟨(i 0).val, idx2_lt0 i⟩ h) (Ideal.ofBits .f32 0x00000000#32)
      * W2 (ix2 h (⟨(i 1).val, idx2_lt1 i⟩ : Fin 32)))
    + b2 (ix1 (⟨(i 1).val, idx2_lt1 i⟩ : Fin 32))

/-- The other way of computing the pre-activation: the 192 features of edge e laid side by side — source,
    destination, attributes, and the global row of the edge's graph — contracted against W1 at once. It is the
    specification's whenever the edge's graph number is below 128. -/
theorem preAct_of_concat (e : Fin 1000000) (h : Fin 128) (hg : (graphOf (ix1 e)).toNat < 128) (cat : Fin 192 → EReal)
    (h0 : ∀ k : Fin 64, cat ⟨k.val, by omega⟩ = src (ix2 e k))
    (h1 : ∀ k : Fin 64, cat ⟨64 + k.val, by omega⟩ = dest (ix2 e k))
    (h2 : ∀ k : Fin 32, cat ⟨128 + k.val, by omega⟩ = attr (ix2 e k))
    (h3 : ∀ k : Fin 32, cat ⟨160 + k.val, by omega⟩ = u (ix2 (⟨(graphOf (ix1 e)).toNat, hg⟩ : Fin 128) k)) :
    (∑ j : Fin 192, cat j * W1 (ix2 j h)) + b1 (ix1 h) = preAct src dest attr u graphOf W1 b1 e h := by
  unfold preAct
  rw [sum_four_stretches, sum_hot _ hg]
  simp only [h0, h1, h2, h3]
  rfl

end Spec

end Cert.EdgeMlp

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.KernelValue.lean ====
/-
  The block the kernel's body stores, read at one entry.

  Entry (p, q) of the stored block — edge p of the block, output q — is the second layer applied to the row of
  first-layer pre-activations of that edge: the positive part of each of the 128 pre-activations against column q
  of W2, plus b2[q]. Pre-activation (p, h) is the sum of four products read at (p, h) — the source block against its
  rows of W1, the destination block against its rows, the attribute block against its rows, and the indicator
  matrix (graph b against edge p: is b the edge's graph number?) against the table of graph contributions,
  contracted over the 128 graphs — plus b1[h]. The changes of float format in between are the identity on the
  extended reals, and a product into a zero accumulator is the plain sum.
-/
import proofs.«416701_j5428838662514_3_alg».proof.Proof.Gen.KernelIdeal.Skeleton
import proofs.«416701_j5428838662514_3_alg».proof.Proof.EdgeMath
import proofs.«416701_j5428838662514_3_alg».proof.Proof.LibContract
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.KernelIdeal.Body

open Cert.KernelIdeal Cert.KernelIdeal.Gen Cert.EdgeMlp
open Idealize.ShloMosaic Idealize.ShloMosaic.ValueIdx

/-! ### The body's four kinds of product at an output entry -/

/-- A block of node features (5000 edges by 64) against 64 rows of W1. -/
theorem prod_node (L : FVec Ideal S5000x64 .bf16) (R : FVec Ideal S64x128 .bf16) (p : Fin 5000) (h : Fin 128) :
    matmul dot_S5000x64_S64x128_S5000x128_1_0_0_1_n_n none L R (constant S5000x128 .f32 0x00000000#32) (ix2 p h)
      = ∑ k : Fin 64, L (ix2 p k) * R (ix2 k h) := by
  simp only [matmul]
  exact Contract.matmul_zero_rows_cols _ none rfl rfl rfl rfl rfl rfl rfl rfl L R p h

/-- The block of edge attributes (5000 by 32) against 32 rows of W1. -/
theorem prod_attr (L : FVec Ideal S5000x32 .bf16) (R : FVec Ideal S32x128 .bf16) (p : Fin 5000) (h : Fin 128) :
    matmul dot_S5000x32_S32x128_S5000x128_1_0_0_1_n_n none L R (constant S5000x128 .f32 0x00000000#32) (ix2 p h)
      = ∑ k : Fin 32, L (ix2 p k) * R (ix2 k h) := by
  simp only [matmul]
  exact Contract.matmul_zero_rows_cols _ none rfl rfl rfl rfl rfl rfl rfl rfl L R p h

/-- The indicator matrix (128 graphs by 5000 edges), used transposed, against the table of graph contributions. -/
theorem prod_graph (L : FVec Ideal S128x5000 .bf16) (R : FVec Ideal S128x128 .bf16) (p : Fin 5000) (h : Fin 128) :
    matmul dot_S128x5000_S128x128_S5000x128_0_0_1_1_n_n none L R (constant S5000x128 .f32 0x00000000#32) (ix2 p h)
      = ∑ b : Fin 128, L (ix2 b p) * R (ix2 b h) := by
  simp only [matmul]
  exact Contract.matmul_zero_cols_cols _ none rfl rfl rfl rfl rfl rfl rfl rfl L R p h

/-- The hidden block (5000 by 128) against W2. -/
theorem prod_out (L : FVec Ideal S5000x128 .bf16) (R : FVec Ideal S128x32 .bf16) (p : Fin 5000) (q : Fin 32) :
    matmul dot_S5000x128_S128x32_S5000x32_1_0_0_1_n_n none L R (constant S5000x32 .f32 0x00000000#32) (ix2 p q)
      = ∑ h : Fin 128, L (ix2 p h) * R (ix2 h q) := by
  simp only [matmul]
  exact Contract.matmul_zero_rows_cols _ none rfl rfl rfl rfl rfl rfl rfl rfl L R p q

/-! ### The layout operations of the body at an index -/

/-- The bias b1, viewed as one row and broadcast down the 5000 rows of the block, reads b1[h] in every row. -/
theorem bias_rows_128 (v : FVec Ideal S128 .f32) (h1 : S128.ShapeCasts S1x128) (h2 : S1x128.Broadcasts S5000x128)
    (p : Fin 5000) (q : Fin 128) :
    broadcastTo S5000x128 (shapeCast S1x128 v h1) h2 (ix2 p q) = v (ix1 q) := by
  rw [broadcastTo_apply _ h2 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])]
  refine (shapeCast_addUnit_apply ![128] v h1 (ix2 (0 : Fin 1) q)).trans ?_
  exact congrArg v (funext fun a => by match a with | ⟨0, _⟩ => rfl)

/-- The bias b2 likewise reads b2[q] in every row. -/
theorem bias_rows_32 (v : FVec Ideal S32 .f32) (h1 : S32.ShapeCasts S1x32) (h2 : S1x32.Broadcasts S5000x32)
    (p : Fin 5000) (q : Fin 32) :
    broadcastTo S5000x32 (shapeCast S1x32 v h1) h2 (ix2 p q) = v (ix1 q) := by
  rw [broadcastTo_apply _ h2 (ix2 p q) (ix2 (0 : Fin 1) q) (fun a => by
    match a with
    | ⟨0, _⟩ => show (0 : Nat) = if (1 : Nat) = 1 then 0 else p.val; rw [if_pos rfl]
    | ⟨1, _⟩ => show q.val = if (32 : Nat) = 1 then 0 else q.val; rw [if_neg (by decide)])]
  refine (shapeCast_addUnit_apply ![32] v h1 (ix2 (0 : Fin 1) q)).trans ?_
  exact congrArg v (funext fun a => by match a with | ⟨0, _⟩ => rfl)

/-- The indicator matrix the body builds from its row of graph numbers: entry (b, p) compares the number of edge p
    with b, and the comparison's bit, widened and converted, is the float 0 or 1. -/
theorem indicator_entry (row : Vec Ideal S1x5000 .i32) (h1 : S1x5000.ShapeCasts S5000) (h2 : S5000.ShapeCasts S1x5000)
    (h3 : S1x5000.Broadcasts S128x5000) (h4 : S128x5000.Iotas .tc 32 [0]) (h5 : 1 < 32) (b : Fin 128) (p : Fin 5000) :
    (sitofp .f32 (extui 32 (cmpi .eq (broadcastTo S128x5000 (shapeCast S1x5000 (shapeCast S5000 row h1) h2) h3)
        (iota .tc S128x5000 32 [0] h4)) h5) : FVec Ideal S128x5000 .f32) (ix2 b p)
      = hot (row (ix2 (0 : Fin 1) p)) (BitVec.ofNat 32 b.val) := by
  rw [shapeCast_shapeCast]
  show ((((IntOp.cmpi .eq (broadcastTo S128x5000 row h3 (ix2 b p)) (iota .tc S128x5000 32 [0] h4 (ix2 b p))).setWidth 32).toInt : ℝ) : EReal) = _
  rw [toInt_setWidth_bit, iota_single_apply, broadcastTo_apply row h3 (ix2 b p) (ix2 (0 : Fin 1) p) (fun a => by
    match a with
    | ⟨0, _⟩ => show (0 : Nat) = if (1 : Nat) = 1 then 0 else b.val; rw [if_pos rfl]
    | ⟨1, _⟩ => show p.val = if (5000 : Nat) = 1 then 0 else p.val; rw [if_neg (by decide)])]
  unfold hot
  norm_cast

/-! ### The two layers at an entry -/

/-- The first layer's block at (p, h). -/
theorem first_layer_entry (row : Vec Ideal S1x5000 .i32) (xs xd : Vec Ideal S5000x64 .f32) (xa : Vec Ideal S5000x32 .f32)
    (tab : Vec Ideal S128x128 .f32) (ws wd : Vec Ideal S64x128 .f32) (we : Vec Ideal S32x128 .f32) (bb1 : Vec Ideal S128 .f32)
    (p : Fin 5000) (h : Fin 128) :
    k0_pay2 (F := Ideal) row xs xd xa tab ws wd we bb1 (ix2 p h)
      = ((((∑ k : Fin 64, xs (ix2 p k) * ws (ix2 k h)) + ∑ k : Fin 64, xd (ix2 p k) * wd (ix2 k h))
            + ∑ k : Fin 32, xa (ix2 p k) * we (ix2 k h))
          + ∑ b : Fin 128, hot (row (ix2 (0 : Fin 1) p)) (BitVec.ofNat 32 b.val) * tab (ix2 b h))
        + bb1 (ix1 h) := by
  unfold k0_pay2
  simp only [addf_apply, prod_node, prod_attr, prod_graph, bias_rows_128, truncf_apply, shapeCast_self]
  congr 1
  congr 1
  exact Finset.sum_congr rfl fun b _ => congrArg (· * tab (ix2 b h)) (indicator_entry row _ _ _ _ _ b p)

/-- The second layer's block at (p, q), over any first-layer block. -/
theorem second_layer_entry (hid : FVec Ideal S5000x128 .f32) (w2 : Vec Ideal S128x32 .f32) (bb2 : Vec Ideal S32 .f32)
    (p : Fin 5000) (q : Fin 32) :
    k0_pay1 (F := Ideal) hid w2 bb2 (ix2 p q)
      = (∑ h : Fin 128, max (hid (ix2 p h)) (Ideal.ofBits .f32 0x00000000#32) * w2 (ix2 h q)) + bb2 (ix1 q) := by
  unfold k0_pay1
  simp only [addf_apply, prod_out, bias_rows_32, truncf_apply, maximumf_apply, broadcast_apply]
  rfl

end Cert.KernelIdeal.Body

end
-- ==== Proof.KernelArray.lean ====
/-
  From the blocks the grid points write back to the whole result array.

  Grid point t (of 200) is handed rows 5000 t … 5000 t + 4999 of the three per-edge arrays, row t of the table of graph
  numbers laid out 200 by 5000 (so its entry p is the graph number of edge 5000 t + p), and, whole, the weights the
  host program prepared: W1's four row stretches (rows 0–63, 64–127, 128–159 as they are; rows 160–191 already
  multiplied into the global features, one row of 128 contributions per graph), b1, W2 and b2. Read through these,
  the block the body stores (KernelValue) is block t of the specification `Cert.EdgeMlp.edgeOut` of the argument
  arrays; the 200 blocks tile the result's rows, so the result array is the specification.
-/
import proofs.«416701_j5428838662514_3_alg».proof.Proof.Gen.KernelIdeal.Value
import proofs.«416701_j5428838662514_3_alg».proof.Proof.KernelBody
import proofs.«416701_j5428838662514_3_alg».proof.Proof.KernelValue
import proofs.«416701_j5428838662514_3_alg».proof.Proof.EdgeMath
import proofs.«416701_j5428838662514_3_alg».proof.Proof.LibContract
import Idealize.ShloMosaic.Lib.Pipeline.Value
import Idealize.ShloMosaic.Lib.ValueIdx
import Idealize.ShloMosaic.Lib.StableHlo.Run

noncomputable section

open scoped BigOperators

namespace Cert.KernelIdeal.Body

open Cert.KernelIdeal Cert.KernelIdeal.Gen Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, and the specification of them -/

abbrev aSrc (c : Dev nD) : FVec Ideal SEdgeNode .f32 := m ((c : Thread nD τ).loc main_arg0)
abbrev aDst (c : Dev nD) : FVec Ideal SEdgeNode .f32 := m ((c : Thread nD τ).loc main_arg1)
abbrev aAttr (c : Dev nD) : FVec Ideal SEdgeAttr .f32 := m ((c : Thread nD τ).loc main_arg2)
abbrev aGlob (c : Dev nD) : FVec Ideal SGlobal .f32 := m ((c : Thread nD τ).loc main_arg3)
abbrev aGraph (c : Dev nD) : IVec SEdges 32 := m ((c : Thread nD τ).loc main_arg4)
abbrev aW1 (c : Dev nD) : FVec Ideal SW1 .f32 := m ((c : Thread nD τ).loc main_arg5)
abbrev aB1 (c : Dev nD) : FVec Ideal SHid .f32 := m ((c : Thread nD τ).loc main_arg6)
abbrev aW2 (c : Dev nD) : FVec Ideal SW2 .f32 := m ((c : Thread nD τ).loc main_arg7)
abbrev aB2 (c : Dev nD) : FVec Ideal SOut .f32 := m ((c : Thread nD τ).loc main_arg8)

/-- The specification at the kernel's arguments. -/
def spec (c : Dev nD) : FVec Ideal SEdgeAttr .f32 :=
  edgeOut (aSrc m c) (aDst m c) (aAttr m c) (aGlob m c) (aGraph m c) (aW1 m c) (aB1 m c) (aW2 m c) (aB2 m c)

/-! ## The blocks a grid point is handed, at their literal types -/

abbrev srcBlk (c : Dev nD) (t : Fin cfg0.N) : Vec Ideal S5000x64 .f32 := iblk m c 0 t
abbrev dstBlk (c : Dev nD) (t : Fin cfg0.N) : Vec Ideal S5000x64 .f32 := iblk m c 1 t
abbrev attrBlk (c : Dev nD) (t : Fin cfg0.N) : Vec Ideal S5000x32 .f32 := iblk m c 2 t
abbrev tblBlk (c : Dev nD) (t : Fin cfg0.N) : Vec Ideal S200x5000 .i32 := iblk m c 3 t
abbrev tabBlk (c : Dev nD) (t : Fin cfg0.N) : Vec Ideal S128x128 .f32 := iblk m c 4 t
abbrev wsBlk (c : Dev nD) (t : Fin cfg0.N) : Vec Ideal S64x128 .f32 := iblk m c 5 t
abbrev wdBlk (c : Dev nD) (t : Fin cfg0.N) : Vec Ideal S64x128 .f32 := iblk m c 6 t
abbrev weBlk (c : Dev nD) (t : Fin cfg0.N) : Vec Ideal S32x128 .f32 := iblk m c 7 t
abbrev b1Blk (c : Dev nD) (t : Fin cfg0.N) : Vec Ideal S128 .f32 := iblk m c 8 t
abbrev w2Blk (c : Dev nD) (t : Fin cfg0.N) : Vec Ideal S128x32 .f32 := iblk m c 9 t
abbrev b2Blk (c : Dev nD) (t : Fin cfg0.N) : Vec Ideal S32 .f32 := iblk m c 10 t

/-! ## Where the blocks sit: the index maps over the 200 grid points -/

/-- The per-edge windows (and the result's) move one block of rows per grid point; every other window stays at block
    zero; the row of the table the body reads is row t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ k0_off1 (grid0.coords t) (0 : Fin 2) = t.val ∧ k0_off1 (grid0.coords t) (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Edge p of block t is edge 5000 t + p. -/
theorem edge_lt (t : Fin cfg0.N) (p : Fin 5000) : 5000 * t.val + p.val < 1000000 := by
  have ht : t.val < 200 := lt_of_lt_of_eq t.isLt N_0
  have := p.isLt
  omega

abbrev edgeOf (t : Fin cfg0.N) (p : Fin 5000) : Fin 1000000 := ⟨5000 * t.val + p.val, edge_lt t p⟩

/-! ## The arrays the host program prepared, as functions of the arguments -/

theorem V_tbl (c : Dev nD) :
    (V m c main_v0 : Vec Ideal S200x5000 .i32) = shapeCast S200x5000 (aGraph m c) shapeCasts_S1000000_S200x5000 := by
  dsimp only [Gen.V, Gen.hostOps0]; after_results <;> rfl

theorem V_ws (c : Dev nD) :
    (V m c main_v1 : Vec Ideal S64x128 .f32) = extractStridedSlice S64x128 ![0, 0] (aW1 m c) slices_S192x128_S64x128_0_0 := by
  dsimp only [Gen.V, Gen.hostOps0]; after_results <;> rfl

theorem V_wd (c : Dev nD) :
    (V m c main_v2 : Vec Ideal S64x128 .f32) = extractStridedSlice S64x128 ![64, 0] (aW1 m c) slices_S192x128_S64x128_64_0 := by
  dsimp only [Gen.V, Gen.hostOps0]; after_results <;> rfl

theorem V_we (c : Dev nD) :
    (V m c main_v3 : Vec Ideal S32x128 .f32) = extractStridedSlice S32x128 ![128, 0] (aW1 m c) slices_S192x128_S32x128_128_0 := by
  dsimp only [Gen.V, Gen.hostOps0]; after_results <;> rfl

theorem V_tab (c : Dev nD) :
    (V m c main_v5 : Vec Ideal S128x128 .f32)
      = Host.dotGeneral dot_S128x32_S32x128_S128x128_1_0_0_1_n_n none (aGlob m c)
          (extractStridedSlice S32x128 ![160, 0] (aW1 m c) slices_S192x128_S32x128_160_0) := by
  dsimp only [Gen.V, Gen.hostOps0]; after_results <;> rfl

/-- A band of rows cut out of W1, at an entry: row k of the band starting at row o is row o + k. -/
theorem band_entry {R : Nat} (o : Nat) (x : FVec Ideal S192x128 .f32) (hs : S192x128.Slices ![o, 0] (⟨2, ![R, 128]⟩ : Shape))
    (k : Fin R) (h : Fin 128) (hk : o + k.val < 192) :
    extractStridedSlice (⟨2, ![R, 128]⟩ : Shape) ![o, 0] x hs (ix2 k h) = x (ix2 (⟨o + k.val, hk⟩ : Fin 192) h) :=
  extractStridedSlice_apply ![o, 0] x hs (ix2 k h) (ix2 (⟨o + k.val, hk⟩ : Fin 192) h) (fun a => by
    match a with
    | ⟨0, _⟩ => rfl
    | ⟨1, _⟩ => exact (Nat.zero_add _).symm)

/-! ## The blocks at an entry, as entries of the argument arrays -/

theorem src_entry (c : Dev nD) (t : Fin cfg0.N) (p : Fin 5000) (k : Fin 64) :
    srcBlk m c t (ix2 p k) = aSrc m c (ix2 (edgeOf t p) k) := by
  obtain ⟨e0, e1, -⟩ := idx_facts t
  show V m c main_arg0 (((cfg0.win 0).blk t).view.emb (ix2 p k)) = _
  rw [V_main_arg0]
  refine congrArg (aSrc m c) (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * k.val = k.val; omega

theorem dst_entry (c : Dev nD) (t : Fin cfg0.N) (p : Fin 5000) (k : Fin 64) :
    dstBlk m c t (ix2 p k) = aDst m c (ix2 (edgeOf t p) k) := by
  obtain ⟨-, -, e0, e1, -⟩ := idx_facts t
  show V m c main_arg1 (((cfg0.win 1).blk t).view.emb (ix2 p k)) = _
  rw [V_main_arg1]
  refine congrArg (aDst m c) (funext fun a => Fin.ext ?_)
  match a with
  | ⟨0, _⟩ => show win0_1.index t (0 : Fin 2) * 5000 + 1 * p.val = 5000 * t.val + p.val; omega
  | ⟨1, _⟩ => show win0_1.index t (1 : Fin 2) * 64 + 1 * k.val = k.val; omega

theorem attr_entry (c : Dev nD) (t : Fin cfg0.N) (p : Fin 5000) (k : Fin 32) :
    attrBlk m c t (ix2 p k) = aAttr m c (ix2 (edgeOf t p) k) := by
  obtain ⟨-, -, -, -, e0, e1, -⟩ := idx_facts t
  show V m c main_arg2 (((cfg0.win 2).blk t).view.emb (ix2 p k)) = _
  rw [V_main_arg2]
  refine congrArg (aAttr m c) (funext fun a => Fin.ext ?_)
  match a with
  | ⟨0, _⟩ => show win0_2.index t (0 : Fin 2) * 5000 + 1 * p.val = 5000 * t.val + p.val; omega
  | ⟨1, _⟩ => show win0_2.index t (1 : Fin 2) * 32 + 1 * k.val = k.val; omega

/-- Entry p of the row of graph numbers the body reads at point t is the graph number of edge 5000 t + p: the table is
    the flat vector of graph numbers laid out 200 rows of 5000. -/
theorem row_entry (c : Dev nD) (t : Fin cfg0.N) (p : Fin 5000) :
    graphRow (grid0.coords t) (tblBlk m c t) (ix2 (0 : Fin 1) p) = aGraph m c (ix1 (edgeOf t p)) := by
  obtain ⟨-, -, -, -, -, -, -, -, e8, e9⟩ := idx_facts t
  obtain ⟨w0, w1, -⟩ := idx_whole t
  have ht : t.val < 200 := lt_of_lt_of_eq t.isLt N_0
  have hrow : graphRow (grid0.coords t) (tblBlk m c t) (ix2 (0 : Fin 1) p) = tblBlk m c t (ix2 (⟨t.val, ht⟩ : Fin 200) p) := by
    unfold graphRow
    show tblBlk m c t ((Rect.unit (s := S200x5000) (k0_off1 (grid0.coords t)) S1x5000.size (k0_off1_inb (grid0.coords t))).emb
        (ix2 (0 : Fin 1) p)) = _
    refine congrArg (tblBlk m c t) (funext fun a => Fin.ext ?_)
    match a with
    | ⟨0, _⟩ => show k0_off1 (grid0.coords t) (0 : Fin 2) + 1 * 0 = t.val; omega
    | ⟨1, _⟩ => show k0_off1 (grid0.coords t) (1 : Fin 2) + 1 * p.val = p.val; omega
  have htbl : tblBlk m c t (ix2 (⟨t.val, ht⟩ : Fin 200) p)
      = (V m c main_v0 : Vec Ideal S200x5000 .i32) (ix2 (⟨t.val, ht⟩ : Fin 200) p) := by
    show V m c main_v0 (((cfg0.win 3).blk t).view.emb (ix2 (⟨t.val, ht⟩ : Fin 200) p)) = _
    refine congrArg _ (funext fun a => Fin.ext ?_)
    match a with
    | ⟨0, _⟩ => show win0_3.index t (0 : Fin 2) * 200 + 1 * t.val = t.val; omega
    | ⟨1, _⟩ => show win0_3.index t (1 : Fin 2) * 5000 + 1 * p.val = p.val; omega
  rw [hrow, htbl, V_tbl]
  refine shapeCast_apply _ _ _ (ix1 (edgeOf t p)) ?_
  rw [Shape.rowMajor_val_one, Shape.rowMajor_val_two]
  show 5000 * t.val + p.val = t.val * 5000 + p.val
  omega

theorem ws_entry (c : Dev nD) (t : Fin cfg0.N) (k : Fin 64) (h : Fin 128) :
    wsBlk m c t (ix2 k h) = aW1 m c (ix2 (⟨k.val, by omega⟩ : Fin 192) h) := by
  obtain ⟨-, -, -, -, w0, w1, -⟩ := idx_whole t
  have e : wsBlk m c t (ix2 k h) = (V m c main_v1 : Vec Ideal S64x128 .f32) (ix2 k h) := by
    show V m c main_v1 (((cfg0.win 5).blk t).view.emb (ix2 k h)) = _
    refine congrArg _ (funext fun a => Fin.ext ?_)
    match a with
    | ⟨0, _⟩ => show win0_5.index t (0 : Fin 2) * 64 + 1 * k.val = k.val; omega
    | ⟨1, _⟩ => show win0_5.index t (1 : Fin 2) * 128 + 1 * h.val = h.val; omega
  rw [e, V_ws, band_entry 0 (aW1 m c) _ k h (by omega)]
  exact congrArg (aW1 m c) (congrArg (fun r => ix2 r h) (Fin.ext (Nat.zero_add _)))

theorem wd_entry (c : Dev nD) (t : Fin cfg0.N) (k : Fin 64) (h : Fin 128) :
    wdBlk m c t (ix2 k h) = aW1 m c (ix2 (⟨64 + k.val, by omega⟩ : Fin 192) h) := by
  obtain ⟨-, -, -, -, -, -, w0, w1, -⟩ := idx_whole t
  have e : wdBlk m c t (ix2 k h) = (V m c main_v2 : Vec Ideal S64x128 .f32) (ix2 k h) := by
    show V m c main_v2 (((cfg0.win 6).blk t).view.emb (ix2 k h)) = _
    refine congrArg _ (funext fun a => Fin.ext ?_)
    match a with
    | ⟨0, _⟩ => show win0_6.index t (0 : Fin 2) * 64 + 1 * k.val = k.val; omega
    | ⟨1, _⟩ => show win0_6.index t (1 : Fin 2) * 128 + 1 * h.val = h.val; omega
  rw [e, V_wd, band_entry 64 (aW1 m c) _ k h (by omega)]

theorem we_entry (c : Dev nD) (t : Fin cfg0.N) (k : Fin 32) (h : Fin 128) :
    weBlk m c t (ix2 k h) = aW1 m c (ix2 (⟨128 + k.val, by omega⟩ : Fin 192) h) := by
  obtain ⟨-, -, -, -, -, -, -, -, w0, w1, -⟩ := idx_whole t
  have e : weBlk m c t (ix2 k h) = (V m c main_v3 : Vec Ideal S32x128 .f32) (ix2 k h) := by
    show V m c main_v3 (((cfg0.win 7).blk t).view.emb (ix2 k h)) = _
    refine congrArg _ (funext fun a => Fin.ext ?_)
    match a with
    | ⟨0, _⟩ => show win0_7.index t (0 : Fin 2) * 32 + 1 * k.val = k.val; omega
    | ⟨1, _⟩ => show win0_7.index t (1 : Fin 2) * 128 + 1 * h.val = h.val; omega
  rw [e, V_we, band_entry 128 (aW1 m c) _ k h (by omega)]

/-- The table of graph contributions the host program prepared: entry (b, h) is row b of the global features against
    rows 160–191 of W1. -/
theorem tab_entry (c : Dev nD) (t : Fin cfg0.N) (b h : Fin 128) :
    tabBlk m c t (ix2 b h) = globalProj (aGlob m c) (aW1 m c) b h := by
  obtain ⟨-, -, w0, w1, -⟩ := idx_whole t
  have e : tabBlk m c t (ix2 b h) = (V m c main_v5 : Vec Ideal S128x128 .f32) (ix2 b h) := by
    show V m c main_v5 (((cfg0.win 4).blk t).view.emb (ix2 b h)) = _
    refine congrArg _ (funext fun a => Fin.ext ?_)
    match a with
    | ⟨0, _⟩ => show win0_4.index t (0 : Fin 2) * 128 + 1 * b.val = b.val; omega
    | ⟨1, _⟩ => show win0_4.index t (1 : Fin 2) * 128 + 1 * h.val = h.val; omega
  rw [e, V_tab]
  simp only [Host.dotGeneral]
  rw [Contract.dotGeneral_rows_cols _ none _ rfl rfl rfl rfl rfl rfl rfl rfl]
  unfold globalProj
  exact Finset.sum_congr rfl fun k _ => by rw [band_entry 160 (aW1 m c) _ k h (by have := k.isLt; omega)]

theorem b1_entry (c : Dev nD) (t : Fin cfg0.N) (h : Fin 128) : b1Blk m c t (ix1 h) = aB1 m c (ix1 h) := by
  obtain ⟨-, -, -, -, -, -, -, -, -, -, w0, -⟩ := idx_whole t
  show V m c main_arg6 (((cfg0.win 8).blk t).view.emb (ix1 h)) = _
  rw [V_main_arg6]
  refine congrArg (aB1 m c) (funext fun a => Fin.ext ?_)
  match a with
  | ⟨0, _⟩ => show win0_8.index t (0 : Fin 1) * 128 + 1 * h.val = h.val; omega

theorem w2_entry (c : Dev nD) (t : Fin cfg0.N) (h : Fin 128) (q : Fin 32) : w2Blk m c t (ix2 h q) = aW2 m c (ix2 h q) := by
  obtain ⟨-, -, -, -, -, -, -, -, -, -, -, w0, w1, -⟩ := idx_whole t
  show V m c main_arg7 (((cfg0.win 9).blk t).view.emb (ix2 h q)) = _
  rw [V_main_arg7]
  refine congrArg (aW2 m c) (funext fun a => Fin.ext ?_)
  match a with
  | ⟨0, _⟩ => show win0_9.index t (0 : Fin 2) * 128 + 1 * h.val = h.val; omega
  | ⟨1, _⟩ => show win0_9.index t (1 : Fin 2) * 32 + 1 * q.val = q.val; omega

theorem b2_entry (c : Dev nD) (t : Fin cfg0.N) (q : Fin 32) : b2Blk m c t (ix1 q) = aB2 m c (ix1 q) := by
  obtain ⟨-, -, -, -, -, -, -, -, -, -, -, -, -, w0⟩ := idx_whole t
  show V m c main_arg8 (((cfg0.win 10).blk t).view.emb (ix1 q)) = _
  rw [V_main_arg8]
  refine congrArg (aB2 m c) (funext fun a => Fin.ext ?_)
  match a with
  | ⟨0, _⟩ => show win0_10.index t (0 : Fin 1) * 32 + 1 * q.val = q.val; omega

/-! ## What grid point t writes back: block t of the specification -/

/-- The first layer at the blocks of point t is the specification's pre-activation of edge 5000 t + p. -/
theorem first_layer_at (c : Dev nD) (t : Fin cfg0.N) (p : Fin 5000) (h : Fin 128) :
    k0_pay2 (F := Ideal) (graphRow (grid0.coords t) (tblBlk m c t)) (srcBlk m c t) (dstBlk m c t) (attrBlk m c t)
        (tabBlk m c t) (wsBlk m c t) (wdBlk m c t) (weBlk m c t) (b1Blk m c t) (ix2 p h)
      = preAct (aSrc m c) (aDst m c) (aAttr m c) (aGlob m c) (aGraph m c) (aW1 m c) (aB1 m c) (edgeOf t p) h := by
  rw [first_layer_entry]
  unfold preAct
  simp only [src_entry, dst_entry, attr_entry, row_entry, ws_entry, wd_entry, we_entry, tab_entry, b1_entry]

/-- What point t writes back is block t of the specification of the argument arrays. -/
theorem flushed_eq (c : Dev nD) (t : Fin cfg0.N) :
    (dats m 0 c).flushed 11 t = ((cfg0.win 11).blk t).view.read (Elt Ideal) (spec m c) := by
  rw [Value.flushed11_A]
  funext j
  obtain ⟨p, q, rfl⟩ : ∃ (p : Fin 5000) (q : Fin 32), (j : S5000x32.Idx) = ix2 p q :=
    ⟨j 0, j 1, eq_ix2 (n0 := 5000) (n1 := 32) j⟩
  obtain ⟨-, -, -, -, -, -, e6, e7, -⟩ := idx_facts t
  have hemb : ((cfg0.win 11).blk t).view.emb (ix2 p q) = ix2 (edgeOf t p) q := funext fun a => Fin.ext (by
    match a with
    | ⟨0, _⟩ => show win0_11.index t (0 : Fin 2) * 5000 + 1 * p.val = 5000 * t.val + p.val; omega
    | ⟨1, _⟩ => show win0_11.index t (1 : Fin 2) * 32 + 1 * q.val = q.val; omega)
  show out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
      = spec m c (((cfg0.win 11).blk t).view.emb (ix2 p q))
  rw [hemb]
  refine (congrFun (stored_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (srcBlk m c t) (dstBlk m c t) (attrBlk m c t) (tblBlk m c t) (tabBlk m c t) (wsBlk m c t) (wdBlk m c t) (weBlk m c t)
    (b1Blk m c t) (w2Blk m c t) (b2Blk m c t)) (ix2 p q)).trans ?_
  rw [second_layer_entry]
  simp only [first_layer_at, w2_entry, b2_entry]
  rfl

/-! ## The 200 blocks tile the result -/

theorem mem_blk (t : Fin cfg0.N) (i : S1000000x32.Idx) :
    i ∈ ((cfg0.win 11).blk t).view.set ↔ ∀ a : Fin 2, win0_11.index t a * S5000x32.size a ≤ (i a).val
      ∧ (i a).val < win0_11.index t a * S5000x32.size a + S5000x32.size a := by
  show i ∈ ((View.whole main_v6).slice (win0_11.rect t)).set ↔ _
  rw [View.set_slice_whole, Rect.mem_set_unit]
  exact Iff.rfl

/-- Row r of the result lies in the block of point r / 5000. -/
theorem covered (i : S1000000x32.Idx) :
    ∃ t : Fin cfg0.N, (cfg0.win 11).flush t = true ∧ i ∈ ((cfg0.win 11).blk t).view.set := by
  have hi0 : (i 0).val < 1000000 := (i 0).isLt
  have hi1 : (i 1).val < 32 := (i 1).isLt
  have hN : cfg0.N = 200 := N_0
  have hlt : (i 0).val / 5000 < cfg0.N := by rw [hN]; omega
  obtain ⟨-, -, -, -, -, -, e6, e7, -⟩ := idx_facts ⟨(i 0).val / 5000, hlt⟩
  refine ⟨⟨(i 0).val / 5000, hlt⟩, flush0_11 _, ?_⟩
  rw [mem_blk]
  intro a
  match a with
  | ⟨0, _⟩ =>
    show win0_11.index ⟨(i 0).val / 5000, hlt⟩ (0 : Fin 2) * 5000 ≤ (i 0).val
      ∧ (i 0).val < win0_11.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_11.index ⟨(i 0).val / 5000, hlt⟩ (1 : Fin 2) * 32 ≤ (i 1).val
      ∧ (i 1).val < win0_11.index ⟨(i 0).val / 5000, hlt⟩ (1 : Fin 2) * 32 + 32
    rw [e7]
    omega

/-- The result array after the run is the specification of the argument arrays. -/
theorem final (c : Dev nD) : (dats m 0 c).arrAt 11 cfg0.N = spec m c :=
  (dats m 0 c).arrAt_eq_of_cover 11 (spec m c) (fun t _ => flushed_eq m c t) (covered)

/-! ## The run -/

/-- Every weakly fair execution of the kernel's program ends with the result array at the specification of the
    argument arrays, and the argument arrays unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Body

end
-- ==== Proof.RefValue.lean ====
/-
  The reference program's result is the specification, when every graph number is a row of the global features.

  The reference looks up row g(e) of the global features for every edge (a gather whose start index is the graph
  number, a negative one first moved up by 128, then kept inside the table), lays the four feature blocks of an edge
  side by side (192 features), and applies the two layers. With every graph number between 0 and 127 the looked-up
  row is row g(e) itself, and the contraction over the 192 features is the specification's pre-activation
  (`Cert.EdgeMlp.preAct_of_concat`: a sum over four stretches, and an indicator sum that keeps one term).
-/
import proofs.«416701_j5428838662514_3_alg».proof.Proof.Gen.ReferenceIdeal.Read
import proofs.«416701_j5428838662514_3_alg».proof.Proof.EdgeMath
import Idealize.ShloMosaic.Lib.Pipeline.Value
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.Read Cert.EdgeMlp
open Idealize.ShloMosaic Idealize.ShloMosaic.ValueIdx

/-! ## A graph number in range -/

/-- A word that is at least 0 and below 128 as a SIGNED number is below 128 as a natural number. -/
theorem toNat_lt_of_signed_range (a : BitVec 32) (h0 : IntOp.cmpi .sge a 0#32 = 1#1) (h1 : IntOp.cmpi .slt a 128#32 = 1#1) :
    a.toNat < 128 := by
  unfold IntOp.cmpi at h0 h1
  simp only [StableHlo.Predicate.ofBool_eq_one_iff, BitVec.sle, BitVec.slt, decide_eq_true_eq] at h0 h1
  have hz : (0#32 : BitVec 32).toInt = 0 := by decide
  have h128 : (128#32 : BitVec 32).toInt = 128 := by decide
  rw [hz] at h0
  rw [h128] at h1
  rw [BitVec.toInt_eq_toNat_cond] at h0 h1
  have := a.isLt
  split at h0 <;> omega

/-- Every graph number lies in 0 … 127, as the precondition's two comparisons say it. -/
def GraphsInRange (g : IVec S1000000 32) : Prop :=
  ∀ e : Fin 1000000, IntOp.cmpi .sge (g (ix1 e)) 0#32 = 1#1 ∧ IntOp.cmpi .slt (g (ix1 e)) 128#32 = 1#1

/-! ## The gather: row g(e) of the global features -/

/-- The start index the reference hands the gather for edge e: a negative graph number moved up by 128, else the
    graph number. In range it is the graph number. -/
theorem start_index (g : IVec S1000000 32) (e : Fin 1000000) (h0 : IntOp.cmpi .sge (g (ix1 e)) 0#32 = 1#1) :
    val_main_v5 (F := Ideal) g (ix2 e (0 : Fin 1)) = g (ix1 e) := by
  rw [val_main_v5_apply, val_main_v4_apply, val_main_v1_apply, val_main_v0_apply, val_main_c_apply]
  have hi : idx_main_v5 (ix2 e (0 : Fin 1)) = ix1 e := funext fun a => Fin.ext (by match a with | ⟨0, _⟩ => rfl)
  rw [hi]
  have hneg : IntOp.cmpi .slt (g (ix1 e)) 0#32 = 0#1 := by
    apply eq_zero_of_ne_one
    intro h
    unfold IntOp.cmpi at h h0
    simp only [StableHlo.Predicate.ofBool_eq_one_iff, BitVec.sle, BitVec.slt, decide_eq_true_eq] at h h0
    omega
  rw [hneg, select_zero]

/-- The gathered block at (e, k): entry k of the row of the global features that the start index of edge e names,
    read signed and kept inside the 128 rows. -/
theorem gather_entry (x : FVec Ideal S128x32 .f32) (idx : IVec S1000000x1 32) (e : Fin 1000000) (k : Fin 32) :
    Host.gather gather_S128x32_S1000000x1_S1000000x32_1_0_n_n_0_1_132 x idx (ix2 e k)
      = x (ix2 (⟨min (idx (ix2 e (0 : Fin 1))).toInt.toNat 127, by omega⟩ : Fin 128) k) := by
  unfold Host.gather
  congr 1
  funext a
  refine Fin.ext ?_
  match a with
  | ⟨0, _⟩ =>
    show gather_S128x32_S1000000x1_S1000000x32_1_0_n_n_0_1_132.start (ix2 e k) idx 0
        + gather_S128x32_S1000000x1_S1000000x32_1_0_n_n_0_1_132.batchCoord (ix2 e k) 0
        + gather_S128x32_S1000000x1_S1000000x32_1_0_n_n_0_1_132.offCoord (ix2 e k) 0 = _
    rw [GatherDims.batchCoord_eq_zero _ _ _ List.not_mem_nil,
      GatherDims.offCoord_eq_zero _ _ _ (by decide)]
    simp only [Nat.add_zero]
    unfold GatherDims.start
    rw [dif_pos (by decide)]
    have hsi : gather_S128x32_S1000000x1_S1000000x32_1_0_n_n_0_1_132.siIdx (ix2 e k)
        ⟨List.idxOf (0 : Fin 2) gather_S128x32_S1000000x1_S1000000x32_1_0_n_n_0_1_132.startIndexMap,
          List.idxOf_lt_length_iff.2 (by decide)⟩ = ix2 e (0 : Fin 1) := by
      funext b; refine Fin.ext ?_
      match b with
      | ⟨0, _⟩ => rfl
      | ⟨1, _⟩ => rfl
    rw [hsi]
    rfl
  | ⟨1, _⟩ =>
    show gather_S128x32_S1000000x1_S1000000x32_1_0_n_n_0_1_132.start (ix2 e k) idx 1
        + gather_S128x32_S1000000x1_S1000000x32_1_0_n_n_0_1_132.batchCoord (ix2 e k) 1
        + gather_S128x32_S1000000x1_S1000000x32_1_0_n_n_0_1_132.offCoord (ix2 e k) 1 = _
    rw [GatherDims.batchCoord_eq_zero _ _ _ List.not_mem_nil]
    unfold GatherDims.start GatherDims.offCoord
    rw [dif_neg (by decide), dif_pos (by decide)]
    simp only [Nat.zero_add]
    rfl

/-! ## The 192 features of an edge, stretch by stretch -/

section Features

variable (x0 x1 : FVec Ideal S1000000x64 .f32) (x2 : FVec Ideal S1000000x32 .f32) (x3 : FVec Ideal S128x32 .f32)
  (x4 : IVec S1000000 32)

/-- The four feature blocks of the edges, in the order the reference lays them side by side. -/
abbrev featureBlocks : List ((s : Shape) × (s.Idx → Ideal .f32)) :=
  [⟨S1000000x64, x0⟩, ⟨S1000000x64, x1⟩, ⟨S1000000x32, x2⟩, ⟨S1000000x32, val_main_v6 (F := Ideal) x3 x4⟩]

/-- Feature `pre + k` of edge e is entry k of the block that starts at feature `pre` (block number n of the four, of
    width w). At a literal block the list facts are `rfl`. -/
theorem cat_piece (e : Fin 1000000) (j : Fin 192) (n : Nat) (hn : n < (featureBlocks x0 x1 x2 x3 x4).length) (w : Nat)
    (x : (⟨2, ![1000000, w]⟩ : Shape).Idx → Ideal .f32)
    (hx : (featureBlocks x0 x1 x2 x3 x4)[n] = ⟨(⟨2, ![1000000, w]⟩ : Shape), x⟩) (pre : Nat)
    (hpre : ((((featureBlocks x0 x1 x2 x3 x4).take n).map (·.1)).map fun s =>
      if h : s.rank = S1000000x192.rank then s.size ((1 : Fin S1000000x192.rank).cast h.symm) else 0).sum = pre)
    (k : Fin w) (hj : pre + k.val = j.val) :
    val_main_v7 (F := Ideal) x0 x1 x2 x3 x4 (ix2 e j) = x (ix2 e k) :=
  concatenate_apply_piece (t := S1000000x192) (1 : Fin 2) (featureBlocks x0 x1 x2 x3 x4) _ (ix2 e j) n hn _ x hx rfl pre hpre
    (ix2 e k)
    (fun b hb => by
      match b with
      | ⟨0, _⟩ => rfl
      | ⟨1, _⟩ => exact absurd (Fin.ext rfl) hb)
    hj

theorem cat_src (e : Fin 1000000) (k : Fin 64) :
    val_main_v7 (F := Ideal) x0 x1 x2 x3 x4 (ix2 e (⟨k.val, by omega⟩ : Fin 192)) = x0 (ix2 e k) :=
  cat_piece x0 x1 x2 x3 x4 e _ 0 (Nat.zero_lt_succ _) 64 x0 rfl 0 rfl k (Nat.zero_add _)

theorem cat_dst (e : Fin 1000000) (k : Fin 64) :
    val_main_v7 (F := Ideal) x0 x1 x2 x3 x4 (ix2 e (⟨64 + k.val, by omega⟩ : Fin 192)) = x1 (ix2 e k) :=
  cat_piece x0 x1 x2 x3 x4 e _ 1 (Nat.succ_lt_succ (Nat.zero_lt_succ _)) 64 x1 rfl 64 rfl k rfl

theorem cat_attr (e : Fin 1000000) (k : Fin 32) :
    val_main_v7 (F := Ideal) x0 x1 x2 x3 x4 (ix2 e (⟨128 + k.val, by omega⟩ : Fin 192)) = x2 (ix2 e k) :=
  cat_piece x0 x1 x2 x3 x4 e _ 2 (Nat.succ_lt_succ (Nat.succ_lt_succ (Nat.zero_lt_succ _))) 32 x2 rfl 128 rfl k rfl

/-- The last stretch is row g(e) of the global features, when g(e) is in range. -/
theorem cat_glob (e : Fin 1000000) (k : Fin 32) (h0 : IntOp.cmpi .sge (x4 (ix1 e)) 0#32 = 1#1)
    (hlt : (x4 (ix1 e)).toNat < 128) :
    val_main_v7 (F := Ideal) x0 x1 x2 x3 x4 (ix2 e (⟨160 + k.val, by omega⟩ : Fin 192))
      = x3 (ix2 (⟨(x4 (ix1 e)).toNat, hlt⟩ : Fin 128) k) := by
  have hpiece : val_main_v7 (F := Ideal) x0 x1 x2 x3 x4 (ix2 e (⟨160 + k.val, by omega⟩ : Fin 192))
      = val_main_v6 (F := Ideal) x3 x4 (ix2 e k) :=
    cat_piece x0 x1 x2 x3 x4 e _ 3 (Nat.succ_lt_succ (Nat.succ_lt_succ (Nat.succ_lt_succ (Nat.zero_lt_succ _)))) 32
      (val_main_v6 (F := Ideal) x3 x4) rfl 160 rfl k rfl
  rw [hpiece]
  unfold val_main_v6
  rw [gather_entry]
  refine congrArg x3 (congrArg (fun r => ix2 r k) (Fin.ext ?_))
  show min (val_main_v5 (F := Ideal) x4 (ix2 e (0 : Fin 1))).toInt.toNat 127 = (x4 (ix1 e)).toNat
  rw [start_index x4 e h0, BitVec.toInt_eq_toNat_cond, if_pos (by omega)]
  simp only [Int.toNat_natCast]
  omega

end Features

/-! ## The reference's result array -/

theorem reference_eq (x0 x1 : FVec Ideal S1000000x64 .f32) (x2 : FVec Ideal S1000000x32 .f32) (x3 : FVec Ideal S128x32 .f32)
    (x4 : IVec S1000000 32) (x5 : FVec Ideal S192x128 .f32) (x6 : FVec Ideal S128 .f32) (x7 : FVec Ideal S128x32 .f32)
    (x8 : FVec Ideal S32 .f32) (hg : GraphsInRange x4) :
    val_main_v16 (F := Ideal) x0 x1 x2 x3 x4 x5 x6 x7 x8 = edgeOut x0 x1 x2 x3 x4 x5 x6 x7 x8 := by
  funext i
  obtain ⟨e, q, rfl⟩ : ∃ (e : Fin 1000000) (q : Fin 32), i = ix2 e q := ⟨i 0, i 1, eq_ix2 i⟩
  have hlt : (x4 (ix1 e)).toNat < 128 := toNat_lt_of_signed_range _ (hg e).1 (hg e).2
  -- the hidden row of edge e
  have hid : ∀ h : Fin 128, val_main_v12 (F := Ideal) x0 x1 x2 x3 x4 x5 x6 (ix2 e h)
      = max (preAct x0 x1 x2 x3 x4 x5 x6 e h) (Ideal.ofBits .f32 0x00000000#32) := by
    intro h
    rw [val_main_v12_apply, val_main_v11_apply, val_main_v8_apply, val_main_v10_apply, val_main_v9_apply,
      val_main_call0_v0_apply, val_main_call0_cst_apply]
    have j1 : ∀ j : Fin 192, lidx_main_v8 (ix2 e h) j = ix2 e j := fun j => funext fun a => Fin.ext (by
      match a with | ⟨0, _⟩ => rfl | ⟨1, _⟩ => rfl)
    have j2 : ∀ j : Fin 192, ridx_main_v8 (ix2 e h) j = ix2 j h := fun j => funext fun a => Fin.ext (by
      match a with | ⟨0, _⟩ => rfl | ⟨1, _⟩ => rfl)
    have j3 : idx_main_v9 (idx_main_v10 (ix2 e h)) = ix1 h := funext fun a => Fin.ext (by match a with | ⟨0, _⟩ => rfl)
    simp only [j1, j2, j3]
    show max ((∑ j : Fin 192, val_main_v7 (F := Ideal) x0 x1 x2 x3 x4 (ix2 e j) * x5 (ix2 j h)) + x6 (ix1 h))
        (Ideal.ofBits .f32 0x00000000#32) = _
    rw [preAct_of_concat x0 x1 x2 x3 x4 x5 x6 e h hlt (fun j => val_main_v7 (F := Ideal) x0 x1 x2 x3 x4 (ix2 e j))
      (cat_src x0 x1 x2 x3 x4 e) (cat_dst x0 x1 x2 x3 x4 e) (cat_attr x0 x1 x2 x3 x4 e)
      (fun k => cat_glob x0 x1 x2 x3 x4 e k (hg e).1 hlt)]
  rw [val_main_v16_apply, val_main_v13_apply, val_main_v15_apply, val_main_v14_apply]
  have i1 : ∀ h : Fin 128, lidx_main_v13 (ix2 e q) h = ix2 e h := fun h => funext fun a => Fin.ext (by
    match a with | ⟨0, _⟩ => rfl | ⟨1, _⟩ => rfl)
  have i2 : ∀ h : Fin 128, ridx_main_v13 (ix2 e q) h = ix2 h q := fun h => funext fun a => Fin.ext (by
    match a with | ⟨0, _⟩ => rfl | ⟨1, _⟩ => rfl)
  have i3 : idx_main_v14 (idx_main_v15 (ix2 e q)) = ix1 q := funext fun a => Fin.ext (by match a with | ⟨0, _⟩ => rfl)
  simp only [i1, i2, i3, hid]
  rfl

end Cert.ReferenceIdeal.RefValue

end
-- ==== Proof.PreRange.lean ====
/-
  What the precondition says of the graph numbers.

  The precondition is a conjunction: each float argument is finite everywhere, every graph number is at least 0, and
  every graph number is below 128. Read at its one index it is a chain of `and`s whose last two members are the two
  "for all edges" tests on the graph numbers; each of those, being 1, says its comparison holds at every edge.
-/
import proofs.«416701_j5428838662514_3_alg».proof.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable [Facts]

instance : Subsingleton S_.Idx := ⟨fun a b => funext fun d => d.elim0⟩

/-- Under the precondition every graph number is, as a signed word, at least 0 and below 128. -/
theorem graphs_in_range (a0 a1 : FVec Ideal S1000000x64 .f32) (a2 : FVec Ideal S1000000x32 .f32) (a3 : FVec Ideal S128x32 .f32)
    (a4 : IVec S1000000 32) (a5 : FVec Ideal S192x128 .f32) (a6 : FVec Ideal S128 .f32) (a7 : FVec Ideal S128x32 .f32)
    (a8 : FVec Ideal S32 .f32) (h : fn (F := Ideal) a0 a1 a2 a3 a4 a5 a6 a7 a8 = fun _ => 1#1) (i : S1000000.Idx) :
    IntOp.cmpi .sge (a4 i) 0#32 = 1#1 ∧ IntOp.cmpi .slt (a4 i) 128#32 = 1#1 := by
  have h1 := congrFun h ix0
  dsimp only [fn, fn_part1, fn_part2] at h1
  obtain ⟨h42, h45⟩ := IntOp.andi_eq_one.mp h1
  obtain ⟨-, h41⟩ := IntOp.andi_eq_one.mp h42
  exact ⟨Host.reduce_andi_all _ _ _ _ _ h41 i, Host.reduce_andi_all _ _ _ _ _ h45 i⟩

end Cert.Pre_finite_inputs.Range

end
-- ==== Proof.lean ====
/-
  The edge update of a graph network with a per-graph global feature: the kernel and the reference compute the same
  array over the extended reals.

  For edge e with graph number g(e), both programs compute

      out[e, :] = relu( [src[e], dest[e], attr[e], u[g(e)]] · W1 + b1 ) · W2 + b2 .

  The reference gathers row g(e) of u, lays the four feature blocks side by side and contracts all 192 features against
  W1. The kernel never forms that row: the host program first multiplies u into rows 160–191 of W1 (one row of 128
  contributions per graph), and each grid point, handed 5000 edges, adds to the three block products the product of an
  indicator matrix ([g(e) = b], built by comparing the edges' graph numbers with 0 … 127) with that table. Both are the
  specification `Cert.EdgeMlp.edgeOut`: the kernel as printed (KernelBody, KernelValue, KernelArray: what a grid point
  stores, entry by entry, and the 200 blocks tiling the result), the reference whenever every graph number is one of
  0 … 127 (RefValue: the sum over 192 features by its four stretches, and the indicator sum keeping one term). That
  range is part of the precondition (PreRange reads it back): outside it the reference's index leaves the table of
  128 rows (it is wrapped or clamped) while the indicator row is all zeros. No finiteness is used: the laws are
  associativity and commutativity of sums, 0 · x = 0 and 1 · x = x, which hold on all extended reals.

  The three frames are the generated ones (the reference's is its generated run with the result dropped); the ideal
  pass rewrote nothing, so the idealization claim is trivial.
-/
import proofs.«416701_j5428838662514_3_alg».proof.Defs
import proofs.«416701_j5428838662514_3_alg».proof.Proof.Gen.Kernel
import proofs.«416701_j5428838662514_3_alg».proof.Proof.Gen.Kernel.Skeleton
import proofs.«416701_j5428838662514_3_alg».proof.Proof.Gen.Kernel.Launch
import proofs.«416701_j5428838662514_3_alg».proof.Proof.Gen.Kernel.Points
import proofs.«416701_j5428838662514_3_alg».proof.Proof.Gen.Kernel.Frame
import proofs.«416701_j5428838662514_3_alg».proof.Proof.Gen.KernelIdeal
import proofs.«416701_j5428838662514_3_alg».proof.Proof.Gen.KernelIdeal.Skeleton
import proofs.«416701_j5428838662514_3_alg».proof.Proof.Gen.KernelIdeal.Launch
import proofs.«416701_j5428838662514_3_alg».proof.Proof.Gen.KernelIdeal.Points
import proofs.«416701_j5428838662514_3_alg».proof.Proof.Gen.KernelIdeal.Frame
import proofs.«416701_j5428838662514_3_alg».proof.Proof.Gen.ReferenceIdeal
import proofs.«416701_j5428838662514_3_alg».proof.Proof.Gen.Pre_finite_inputs
import proofs.«416701_j5428838662514_3_alg».proof.Proof.Gen.KernelIdeal.Value
import proofs.«416701_j5428838662514_3_alg».proof.Proof.Gen.ReferenceIdeal.Run
import proofs.«416701_j5428838662514_3_alg».proof.Proof.Gen.ReferenceIdeal.Read
import proofs.«416701_j5428838662514_3_alg».proof.Proof.KernelArray
import proofs.«416701_j5428838662514_3_alg».proof.Proof.RefValue
import proofs.«416701_j5428838662514_3_alg».proof.Proof.PreRange
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of the (agreeing) argument arrays. -/
theorem algebraic : Cert.algebraic_KernelIdeal_ReferenceIdeal := by
  intro m ρ m' ρ' hpre hagree
  refine ⟨fun c => Cert.KernelIdeal.Body.spec m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.ReferenceIdeal.RefValue.reference_eq _ _ _ _ _ _ _ _ _
    (fun e => Cert.Pre_finite_inputs.Range.graphs_in_range _ _ _ _ _ _ _ _ _ (hpre c) (ix1 e))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
